-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x131072x512 : Shape := ⟨3, ![2, 131072, 512]⟩
abbrev S2x256 : Shape := ⟨2, ![2, 256]⟩
abbrev S512x512 : Shape := ⟨2, ![512, 512]⟩
abbrev S512x256 : Shape := ⟨2, ![512, 256]⟩
abbrev S512 : Shape := ⟨1, ![512]⟩
abbrev S_ : Shape := ⟨0, ![]⟩

class Facts : Prop where
  bcast_S_S2x131072x512 : S_.BroadcastsInDim S2x131072x512 (![] : Fin 0 → Fin S2x131072x512.rank)
  reducesTo_S2x131072x512_S_d0_1_2 : S2x131072x512.ReducesTo [0, 1, 2] S_
  h_S_ : 0 < S_.numel
  bcast_S_S2x256 : S_.BroadcastsInDim S2x256 (![] : Fin 0 → Fin S2x256.rank)
  reducesTo_S2x256_S_d0_1 : S2x256.ReducesTo [0, 1] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_arg5 : FVec F S512x256 .f32) (main_arg6 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S2x131072x512 .f32) (main_arg1 : FVec F S2x256 .f32) (main_arg2 : FVec F S512x512 .f32) (main_arg3 : FVec F S512x256 .f32) (main_arg4 : FVec F S512 .f32) (main_arg5 : FVec F S512x256 .f32) (main_arg6 : FVec F S512 .f32) : IVec S_ 1 :=
  let main_v0 : FVec F S2x131072x512 .f32 := Host.absf main_arg0
  let main_cst : FVec F S_ .f32 := constant S_ .f32 0x7F800000#32
  let main_v1 : FVec F S2x131072x512 .f32 := broadcastInDim S2x131072x512 ![] bcast_S_S2x131072x512 main_cst
  let main_v2 : IVec S2x131072x512 1 := cmpf .olt main_v0 main_v1
  let main_c : IVec S_ 1 := constantI S_ 1 1#1
  let main_v3 : IVec S_ 1 := (fun x v => Host.reduce IntOp.andi x v reducesTo_S2x131072x512_S_d0_1_2 h_S_) main_v2 main_c
  let main_v4 : FVec F S2x256 .f32 := Host.absf main_arg1
  let main_cst_0 : FVec F S_ .f32 := constant S_ .f32 0x7F800000#32
  let main_v5 : FVec F S2x256 .f32 := broadcastInDim S2x256 ![] bcast_S_S2x256 main_cst_0
  let main_v6 : IVec S2x256 1 := cmpf .olt main_v4 main_v5
  let main_c_1 : IVec S_ 1 := constantI S_ 1 1#1
  let main_v7 : IVec S_ 1 := (fun x v => Host.reduce IntOp.andi x v reducesTo_S2x256_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_arg5 main_arg6 main_v13 main_v16
-- ==== Kernel.lean ====
abbrev S2x131072x512 : Shape := ⟨3, ![2, 131072, 512]⟩
abbrev S2x256 : Shape := ⟨2, ![2, 256]⟩
abbrev S512x512 : Shape := ⟨2, ![512, 512]⟩
abbrev S512x256 : Shape := ⟨2, ![512, 256]⟩
abbrev S512 : Shape := ⟨1, ![512]⟩
abbrev S256x512 : Shape := ⟨2, ![256, 512]⟩
abbrev S2x512 : Shape := ⟨2, ![2, 512]⟩
abbrev S1x512 : Shape := ⟨2, ![1, 512]⟩
abbrev S2x1x512 : Shape := ⟨3, ![2, 1, 512]⟩
abbrev S1x1024x512 : Shape := ⟨3, ![1, 1024, 512]⟩
abbrev S1x1x512 : Shape := ⟨3, ![1, 1, 512]⟩
abbrev S1024x512 : Shape := ⟨2, ![1024, 512]⟩

abbrev nBuf : Space → Nat
  | .hbm => 20
  | .vmem => 9
  | .smem => 0
  | _ => 0

abbrev bufTy : (tb : Table) → Fin (tcTables nBuf tb) → BufTy
  | .hbm, ⟨0, _⟩ => ⟨S2x131072x512, .f32⟩
  | .hbm, ⟨1, _⟩ => ⟨S2x256, .f32⟩
  | .hbm, ⟨2, _⟩ => ⟨S512x512, .f32⟩
  | .hbm, ⟨3, _⟩ => ⟨S512x256, .f32⟩
  | .hbm, ⟨4, _⟩ => ⟨S512, .f32⟩
  | .hbm, ⟨5, _⟩ => ⟨S512x256, .f32⟩
  | .hbm, ⟨6, _⟩ => ⟨S512, .f32⟩
  | .hbm, ⟨7, _⟩ => ⟨S256x512, .f32⟩
  | .hbm, ⟨8, _⟩ => ⟨S2x512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S256x512, .f32⟩
  | .hbm, ⟨13, _⟩ => ⟨S2x512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S2x1x512, .f32⟩
  | .hbm, ⟨18, _⟩ => ⟨S2x1x512, .f32⟩
  | .hbm, ⟨19, _⟩ => ⟨S2x131072x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1x512, .f32⟩
  | .local _ .vmem, ⟨3, _⟩ => ⟨S1x1x512, .f32⟩
  | .local _ .vmem, ⟨4, _⟩ => ⟨S512x512, .f32⟩
  | .local _ .vmem, ⟨5, _⟩ => ⟨S1x1x512, .f32⟩
  | .local _ .vmem, ⟨6, _⟩ => ⟨S1x1x512, .f32⟩
  | .local _ .vmem, ⟨7, _⟩ => ⟨S1x1024x512, .f32⟩
  | .local _ .vmem, ⟨8, _⟩ => ⟨S1x1024x512, .f32⟩
  | _, _ => ⟨S2x131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S512x256_S256x512_1_0 : S512x256.Transposes [1, 0] S256x512
  bcast_S512_S1x512_1 : S512.BroadcastsInDim S1x512 (![1] : Fin 1 → Fin S1x512.rank)
  bcast_S1x512_S2x512_0_1 : S1x512.BroadcastsInDim S2x512 (![0, 1] : Fin 2 → Fin S2x512.rank)
  shapeCasts_S2x512_S2x1x512 : S2x512.ShapeCasts S2x1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x512 : S512.ShapeCasts S1x512
  broadcasts_S1x512_S1024x512 : S1x512.Broadcasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  shapeCasts_S1024x512_S1x1024x512 : S1024x512.ShapeCasts S1x1024x512
  dot_S2x256_S256x512_S2x512_1_0_0_1_n_n_wf : DotDims.WF S2x256 S256x512 S2x512 [1] [0] [0] [1] [] []
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S2x131072x512.size a
  hwx0_0 : ∀ i : grid0.Coords, EltTy.bits .f32 = 32 ∨ (Rect.block (s := S2x131072x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S2x1x512.size a
  hwx0_1 : ∀ i : grid0.Coords, EltTy.bits .f32 = 32 ∨ (Rect.block (s := S2x1x512) S1x1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S2x1x512.size a
  hwx0_3 : ∀ i : grid0.Coords, EltTy.bits .f32 = 32 ∨ (Rect.block (s := S2x1x512) S1x1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x512.size a ≤ S2x131072x512.size a
  hwx0_4 : ∀ i : grid0.Coords, EltTy.bits .f32 = 32 ∨ (Rect.block (s := S2x131072x512) S1x1024x512.size (cc0_transform_4 i) (hinb0_4 i)).WholeWords (EltTy.packing .f32)

variable [Facts₀]

def dot_S2x256_S256x512_S2x512_1_0_0_1_n_n : DotDims S2x256 S256x512 S2x512 where
  lhsContracting := [1]
  rhsContracting := [0]
  lhsNonContracting := [0]
  rhsNonContracting := [1]
  lhsBatch := []
  rhsBatch := []
  wf := dot_S2x256_S256x512_S2x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x131072x512 : Shape := ⟨3, ![2, 131072, 512]⟩
abbrev S2x256 : Shape := ⟨2, ![2, 256]⟩
abbrev S512x512 : Shape := ⟨2, ![512, 512]⟩
abbrev S512x256 : Shape := ⟨2, ![512, 256]⟩
abbrev S512 : Shape := ⟨1, ![512]⟩
abbrev S256x512 : Shape := ⟨2, ![256, 512]⟩
abbrev S2x512 : Shape := ⟨2, ![2, 512]⟩
abbrev S1x512 : Shape := ⟨2, ![1, 512]⟩
abbrev S2x1x512 : Shape := ⟨3, ![2, 1, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x131072x512, .f32⟩
  | .hbm, ⟨1, _⟩ => ⟨S2x256, .f32⟩
  | .hbm, ⟨2, _⟩ => ⟨S512x512, .f32⟩
  | .hbm, ⟨3, _⟩ => ⟨S512x256, .f32⟩
  | .hbm, ⟨4, _⟩ => ⟨S512, .f32⟩
  | .hbm, ⟨5, _⟩ => ⟨S512x256, .f32⟩
  | .hbm, ⟨6, _⟩ => ⟨S512, .f32⟩
  | .hbm, ⟨7, _⟩ => ⟨S256x512, .f32⟩
  | .hbm, ⟨8, _⟩ => ⟨S2x512, .f32⟩
  | .hbm, ⟨9, _⟩ => ⟨S1x512, .f32⟩
  | .hbm, ⟨10, _⟩ => ⟨S2x512, .f32⟩
  | .hbm, ⟨11, _⟩ => ⟨S2x512, .f32⟩
  | .hbm, ⟨12, _⟩ => ⟨S256x512, .f32⟩
  | .hbm, ⟨13, _⟩ => ⟨S2x512, .f32⟩
  | .hbm, ⟨14, _⟩ => ⟨S1x512, .f32⟩
  | .hbm, ⟨15, _⟩ => ⟨S2x512, .f32⟩
  | .hbm, ⟨16, _⟩ => ⟨S2x512, .f32⟩
  | .hbm, ⟨17, _⟩ => ⟨S2x1x512, .f32⟩
  | .hbm, ⟨18, _⟩ => ⟨S2x131072x512, .f32⟩
  | .hbm, ⟨19, _⟩ => ⟨S2x131072x512, .f32⟩
  | .hbm, ⟨20, _⟩ => ⟨S2x131072x512, .f32⟩
  | .hbm, ⟨21, _⟩ => ⟨S2x1x512, .f32⟩
  | .hbm, ⟨22, _⟩ => ⟨S2x131072x512, .f32⟩
  | .hbm, ⟨23, _⟩ => ⟨S2x131072x512, .f32⟩
  | _, _ => ⟨S2x131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S2x512_0_1 : S1x512.BroadcastsInDim S2x512 (![0, 1] : Fin 2 → Fin S2x512.rank)
  bcast_S2x512_S2x1x512_0_2 : S2x512.BroadcastsInDim S2x1x512 (![0, 2] : Fin 2 → Fin S2x1x512.rank)
  bcast_S2x1x512_S2x131072x512_0_1_2 : S2x1x512.BroadcastsInDim S2x131072x512 (![0, 1, 2] : Fin 3 → Fin S2x131072x512.rank)
  dot_S2x256_S256x512_S2x512_1_0_0_1_n_n_wf : DotDims.WF S2x256 S256x512 S2x512 [1] [0] [0] [1] [] []
  dot_S2x131072x512_S512x512_S2x131072x512_2_1_01_0_n_n_wf : DotDims.WF S2x131072x512 S512x512 S2x131072x512 [2] [1] [0, 1] [0] [] []

variable [Facts₀]

def dot_S2x256_S256x512_S2x512_1_0_0_1_n_n : DotDims S2x256 S256x512 S2x512 where
  lhsContracting := [1]
  rhsContracting := [0]
  lhsNonContracting := [0]
  rhsNonContracting := [1]
  lhsBatch := []
  rhsBatch := []
  wf := dot_S2x256_S256x512_S2x512_1_0_0_1_n_n_wf
def dot_S2x131072x512_S512x512_S2x131072x512_2_1_01_0_n_n : DotDims S2x131072x512 S512x512 S2x131072x512 where
  lhsContracting := [2]
  rhsContracting := [1]
  lhsNonContracting := [0, 1]
  rhsNonContracting := [0]
  lhsBatch := []
  rhsBatch := []
  wf := dot_S2x131072x512_S512x512_S2x131072x512_2_1_01_0_n_n_wf

class Facts : Prop extends Facts₀ where

variable [Facts]
-- ==== Proof.Spec.lean ====
/-
  The function both programs compute, and two reading lemmas for the row vectors the kernel body broadcasts.

  ModLinear: a style vector modulates the input channels, a dense layer follows, and a per-sample bias is added:
      out[b, n, o] = (∑ k, (x[b, n, k] · a[b, k]) · w[o, k]) + β[b, o]
  with `a` (the modulation, [2, 512]) and `β` (the bias, [2, 512]) two small affine images of the style vector.
  Both programs compute `a` and `β` by the same host operations, so the specification takes them as arrays; it is a
  function of the input `x`, the modulation `a`, the weight `w` and the bias `β`, index by index on the extended
  reals. The sum runs over the 512 input channels in one fixed order on both sides, so no law of the extended reals is
  needed beyond reading each side at an index.
-/
import Idealize.ShloMosaic.PureOps.Ideal
import Idealize.ShloMosaic.Lib.ValueIdx
import Idealize.ShloMosaic.Lib.ValueLayout
import Idealize.ShloMosaic.Lib.Pipeline.Value

noncomputable section

namespace Cert.ModLinear

open Idealize.ShloMosaic Idealize.ShloMosaic.ValueIdx

/-- The input's and the output's shape: 2 samples, 131072 positions, 512 channels. -/
abbrev Sx : Shape := ⟨3, ![2, 131072, 512]⟩
/-- The modulation's and the bias's shape: one row of 512 per sample. -/
abbrev Sa : Shape := ⟨2, ![2, 512]⟩
/-- The weight's shape: output channel by input channel. -/
abbrev Sw : Shape := ⟨2, ![512, 512]⟩

/-- The modulated dense layer with its per-sample bias, at output index `(b, n, o)`:
    `(∑ k, (x[b, n, k] · a[b, k]) · w[o, k]) + β[b, o]`. -/
def modLinear (x : FVec Ideal Sx .f32) (a : FVec Ideal Sa .f32) (w : FVec Ideal Sw .f32) (β : FVec Ideal Sa .f32) :
    FVec Ideal Sx .f32 :=
  fun i => (∑ k : Fin 512, x (ix3 (i 0) (i 1) k) * a (ix2 (i 0) k) * w (ix2 (i 2) k)) + β (ix2 (i 0) (i 2))

/-- The specification at an index given by its three coordinates. -/
theorem modLinear_apply (x : FVec Ideal Sx .f32) (a : FVec Ideal Sa .f32) (w : FVec Ideal Sw .f32) (β : FVec Ideal Sa .f32)
    (b : Fin 2) (n : Fin 131072) (o : Fin 512) :
    modLinear x a w β (ix3 b n o) = (∑ k : Fin 512, x (ix3 b n k) * a (ix2 b k) * w (ix2 o k)) + β (ix2 b o) := rfl

section Layout
variable {α : Type}

/-- A `[1, 1, n]` block viewed as a vector of length `n` reads, at `k`, the block at `(0, 0, k)`. -/
theorem shapeCast_11n_n_apply {n : ℕ} (v : (⟨3, ![1, 1, n]⟩ : Shape).Idx → α)
    (h : (⟨3, ![1, 1, n]⟩ : Shape).ShapeCasts ⟨1, ![n]⟩) (k : Fin n) :
    shapeCast ⟨1, ![n]⟩ v h (ix1 k) = v (ix3 (0 : Fin 1) (0 : Fin 1) k) :=
  shapeCast_apply v h _ _ (by
    rw [Shape.rowMajor_val_three, Shape.rowMajor_val_one]
    show (0 * 1 + 0) * n + k.val = k.val
    rw [Nat.zero_mul, Nat.zero_add])

/-- A `[s, n]` array laid out as `[s, 1, n]` reads, at `(b, u, k)`, the array at `(b, k)`. -/
theorem shapeCast_sn_s1n_apply {s n : ℕ} (v : (⟨2, ![s, n]⟩ : Shape).Idx → α)
    (h : (⟨2, ![s, n]⟩ : Shape).ShapeCasts ⟨3, ![s, 1, n]⟩) (b : Fin s) (u : Fin 1) (k : Fin n) :
    shapeCast ⟨3, ![s, 1, n]⟩ v h (ix3 b u k) = v (ix2 b k) :=
  shapeCast_apply v h _ _ (by
    have hu : u.val = 0 := by omega
    rw [Shape.rowMajor_val_three, Shape.rowMajor_val_two]
    show b.val * n + k.val = (b.val * 1 + u.val) * n + k.val
    rw [hu, Nat.mul_one, Nat.add_zero])

/-- A `[1, 1, n]` block made a row `[1, n]` and repeated over `r` rows reads, at `(p, k)`, the block at `(0, 0, k)`:
    the row vector the body multiplies every position's channels by, or adds to every position's outputs. -/
theorem rowOfBlock_apply {r n : ℕ} (v : (⟨3, ![1, 1, n]⟩ : Shape).Idx → α)
    (h₁ : (⟨3, ![1, 1, n]⟩ : Shape).ShapeCasts ⟨1, ![n]⟩) (h₂ : (⟨1, ![n]⟩ : Shape).ShapeCasts ⟨2, ![1, n]⟩)
    (h₃ : (⟨2, ![1, n]⟩ : Shape).Broadcasts ⟨2, ![r, n]⟩) (p : Fin r) (k : Fin n) :
    broadcastTo ⟨2, ![r, n]⟩ (shapeCast ⟨2, ![1, n]⟩ (shapeCast ⟨1, ![n]⟩ v h₁) h₂) h₃ (ix2 p k)
      = v (ix3 (0 : Fin 1) (0 : Fin 1) k) :=
  (broadcastTo_1b_ab_apply _ h₃ p k).trans
    ((shapeCast_a_1a_apply _ h₂ (0 : Fin 1) k).trans (shapeCast_11n_n_apply v h₁ k))

end Layout

end Cert.ModLinear

end
-- ==== Proof.RefValue.lean ====
/-
  The reference, read at an index, is the specification.

  The reference forms the modulation `a` and the bias `β` on the host, stretches each over the 131072 positions,
  multiplies the input by the stretched modulation, contracts the input channels against the weight's second axis and
  adds the stretched bias. Read at `(b, n, o)` — the two stretches read their operand at `(b, k)` and `(b, o)`, the
  contraction is a sum over the channel `k` of the left operand at `(b, n, k)` times the weight at `(o, k)` — that is
  `(∑ k, (x[b, n, k] · a[b, k]) · w[o, k]) + β[b, o]`, the specification's own term.
-/
import proofs.«170841_j41377714930225_1_alg».proof.Proof.Gen.ReferenceIdeal.Read
import proofs.«170841_j41377714930225_1_alg».proof.Proof.Spec

noncomputable section

namespace Cert.ReferenceIdeal.RefValue

open Cert.ReferenceIdeal Cert.ReferenceIdeal.Gen Cert.ReferenceIdeal.Read Cert.ModLinear
open Idealize.ShloMosaic Idealize.ShloMosaic.ValueIdx

/-- The reference's last stage is the modulated dense layer of the input, the host-computed modulation (stage 4), the
    weight and the host-computed bias (stage 9). -/
theorem result_eq (x0 : FVec Ideal S2x131072x512 .f32) (x1 : FVec Ideal S2x256 .f32) (x2 : FVec Ideal S512x512 .f32)
    (x3 : FVec Ideal S512x256 .f32) (x4 : FVec Ideal S512 .f32) (x5 : FVec Ideal S512x256 .f32) (x6 : FVec Ideal S512 .f32) :
    val_main_v16 (F := Ideal) x0 x1 x2 x3 x4 x5 x6
      = modLinear x0 (val_main_v4 (F := Ideal) x1 x3 x4) x2 (val_main_v9 (F := Ideal) x1 x5 x6) := by
  funext i
  obtain ⟨b, n, o, rfl⟩ : ∃ (b : Fin 2) (n : Fin 131072) (o : Fin 512), i = ix3 b n o := ⟨i 0, i 1, i 2, eq_ix3 i⟩
  -- the contraction's left operand sits at (b, n, k), its right operand at (o, k)
  have eL : ∀ k : Fin 512, lidx_main_v13 (ix3 b n o) k = ix3 b n k := fun k => funext fun a => Fin.ext (by
    match a with
    | ⟨0, _⟩ => rfl
    | ⟨1, _⟩ => rfl
    | ⟨2, _⟩ => rfl)
  have eR : ∀ k : Fin 512, ridx_main_v13 (ix3 b n o) k = ix2 o k := fun k => funext fun a => Fin.ext (by
    match a with
    | ⟨0, _⟩ => rfl
    | ⟨1, _⟩ => rfl)
  -- the modulation stretched over the positions is read at (b, k), the bias at (b, o)
  have eA : ∀ k : Fin 512, idx_main_v10 (idx_main_v11 (ix3 b n k)) = ix2 b k := fun k => funext fun a => Fin.ext (by
    match a with
    | ⟨0, _⟩ => rfl
    | ⟨1, _⟩ => rfl)
  have eB : idx_main_v14 (idx_main_v15 (ix3 b n o)) = ix2 b o := funext fun a => Fin.ext (by
    match a with
    | ⟨0, _⟩ => rfl
    | ⟨1, _⟩ => rfl)
  rw [val_main_v16_apply, val_main_v13_apply, val_main_v15_apply, val_main_v14_apply, eB, modLinear_apply]
  refine congrArg₂ (fun s t : EReal => s + t) (Finset.sum_congr rfl fun k _ => ?_) rfl
  rw [eL, eR, val_main_v12_apply, val_main_v11_apply, val_main_v10_apply, eA]
  rfl

end Cert.ReferenceIdeal.RefValue

end
-- ==== Proof.KernelPayload.lean ====
/-
  The kernel body's stored value, read at an index.

  At a grid point the body holds a [1, 1024, 512] block of the input, the sample's modulation row and bias row as
  [1, 1, 512] blocks, and the whole [512, 512] weight. It multiplies every position's channels by the modulation row,
  contracts the channels against the transposed weight in the matrix unit (into a zero accumulator), adds the bias row,
  and stores the result as a [1, 1024, 512] block. The narrowing to a shorter float before the matrix unit is the identity
  on extended reals. So at `(0, p, o)` the stored block is
      (∑ k, (xblock[0, p, k] · arow[0, 0, k]) · w[o, k]) + βrow[0, 0, o].
-/
import proofs.«170841_j41377714930225_1_alg».proof.Proof.Gen.KernelIdeal.Skeleton
import proofs.«170841_j41377714930225_1_alg».proof.Proof.Spec
import Idealize.ShloMosaic.PureOps.Ideal.Laws

noncomputable section

namespace Cert.KernelIdeal.Body

open Cert.KernelIdeal Cert.KernelIdeal.Gen Cert.ModLinear
open Idealize.ShloMosaic Idealize.ShloMosaic.ValueIdx

/-! ## The matrix unit's product: positions by channels times channels by outputs -/

/-- The left operand is read at the output's row … -/
theorem lhs_row (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- … and the contracted channel; -/
theorem lhs_chan (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
/-- the right operand at the contracted channel … -/
theorem rhs_chan (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
/-- … and the output's column. -/
theorem rhs_col (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- Into a zero accumulator the matrix unit's result at `(p, o)` is the sum over the channel `k` of the left operand at
    `(p, k)` times the right operand at `(k, o)`. -/
theorem product_apply (l : FVec Ideal S1024x512 .bf16) (r : FVec Ideal S512x512 .bf16) (p : Fin 1024) (o : Fin 512) :
    matmul dot_S1024x512_S512x512_S1024x512_1_0_0_1_n_n none l r (constant (F := Ideal) S1024x512 .f32 0x00000000#32) (ix2 p o)
      = ∑ k : Fin 512, l (ix2 p k) * r (ix2 k o) := by
  simp only [matmul]
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 p o) ((contrEquiv1 dot_S1024x512_S512x512_S1024x512_1_0_0_1_n_n 512 rfl rfl).symm k) = ix2 p k := funext fun a => Fin.ext (by
    match a with
    | ⟨0, _⟩ => exact lhs_row _ _
    | ⟨1, _⟩ => exact (lhs_chan _ _).trans hk)
  have er : dot_S1024x512_S512x512_S1024x512_1_0_0_1_n_n.rhsIdx (ix2 p o) ((contrEquiv1 dot_S1024x512_S512x512_S1024x512_1_0_0_1_n_n 512 rfl rfl).symm k) = ix2 k o := funext fun a => Fin.ext (by
    match a with
    | ⟨0, _⟩ => exact (rhs_chan _ _).trans hk
    | ⟨1, _⟩ => exact rhs_col _ _)
  rw [el, er]

/-! ## The stored block -/

/-- The body's stored value at `(u, p, o)` of its block (`u` the block's unit axis): the modulated input row `p` contracted
    against row `o` of the weight, plus the bias row at `o`. The arguments are the input block, the modulation row, the bias
    row and the weight, in that order. -/
theorem stored_apply (xb : Vec Ideal S1x1024x512 .f32) (ar : Vec Ideal S1x1x512 .f32) (br : Vec Ideal S1x1x512 .f32)
    (w : Vec Ideal S512x512 .f32) (u : Fin 1) (p : Fin 1024) (o : Fin 512) :
    k0_pay1 (F := Ideal) xb ar br w (ix3 u p o)
      = (∑ k : Fin 512, xb (ix3 (0 : Fin 1) p k) * ar (ix3 (0 : Fin 1) (0 : Fin 1) k) * w (ix2 o k))
        + br (ix3 (0 : Fin 1) (0 : Fin 1) o) := by
  unfold k0_pay1
  refine (shapeCast_ab_1ab_apply _ _ u p o).trans ?_
  refine congrArg₂ (fun s t : EReal => s + t) ?_ (rowOfBlock_apply br _ _ _ p o)
  refine (product_apply _ _ p o).trans (Finset.sum_congr rfl fun k _ => ?_)
  refine congrArg₂ (fun s t : EReal => s * t) (congrArg₂ (fun s t : EReal => s * t) (shapeCast_1ab_ab_apply xb _ p k) (rowOfBlock_apply ar _ _ _ p k)) ?_
  exact transpose_ix2_apply _ _ k o

/-- The same at any index `y` of the block, by its coordinates. -/
theorem stored_at (xb : Vec Ideal S1x1024x512 .f32) (ar : Vec Ideal S1x1x512 .f32) (br : Vec Ideal S1x1x512 .f32)
    (w : Vec Ideal S512x512 .f32) (y : S1x1024x512.Idx) :
    k0_pay1 (F := Ideal) xb ar br w y
      = (∑ k : Fin 512, xb (ix3 (0 : Fin 1) (⟨(y 1).val, (y 1).isLt⟩ : Fin 1024) k) * ar (ix3 (0 : Fin 1) (0 : Fin 1) k)
            * w (ix2 (⟨(y 2).val, (y 2).isLt⟩ : Fin 512) k))
        + br (ix3 (0 : Fin 1) (0 : Fin 1) (⟨(y 2).val, (y 2).isLt⟩ : Fin 512)) := by
  obtain ⟨u, p, o, rfl⟩ : ∃ (u : Fin 1) (p : Fin 1024) (o : Fin 512), y = ix3 u p o := ⟨y 0, y 1, y 2, eq_ix3 y⟩
  exact stored_apply xb ar br w u p o

end Cert.KernelIdeal.Body

end
-- ==== Proof.KernelValue.lean ====
/-
  From the kernel's blocks to its output array.

  The grid has 2 × 128 points; point `(b, q)` holds rows `1024 q … 1024 q + 1023` of sample `b` of the input, the sample's
  modulation row and bias row, and the whole weight, and writes rows `1024 q … 1024 q + 1023` of sample `b` of the output.
  The modulation and the bias reach the kernel as [2, 1, 512] arrays the host lays out from the [2, 512] affine images of
  the style vector. Every output index lies in exactly the block of the point `(b, n / 1024)`, so after the run the output
  array is the specification of the argument arrays everywhere.
-/
import proofs.«170841_j41377714930225_1_alg».proof.Proof.Gen.KernelIdeal.Value
import proofs.«170841_j41377714930225_1_alg».proof.Proof.KernelPayload
import Idealize.ShloMosaic.Lib.StableHlo.Run

noncomputable section

namespace Cert.KernelIdeal.ArrayValue

open Cert.KernelIdeal Cert.KernelIdeal.Gen Cert.KernelIdeal.Value Cert.KernelIdeal.Body Cert.ModLinear
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The host's part: the two affine images of the style vector -/

/-- `z · Wᵀ + bias`, one row of 512 per sample: the modulation (from `weight_alpha`, `bias_alpha`) and the bias (from
    `weight_beta`, `bias_beta`) are both this function of the style vector `z`. -/
def styleAffine (z : FVec Ideal S2x256 .f32) (W : FVec Ideal S512x256 .f32) (bias : FVec Ideal S512 .f32) : FVec Ideal S2x512 .f32 :=
  addf (Host.dotGeneral dot_S2x256_S256x512_S2x512_1_0_0_1_n_n none z (transpose S256x512 [1, 0] W transposes_S512x256_S256x512_1_0))
    (broadcastInDim S2x512 ![0, 1] bcast_S1x512_S2x512_0_1 (broadcastInDim S1x512 ![1] bcast_S512_S1x512_1 bias))

/-- The modulation of the launch contents. -/
abbrev modulation (c : Dev nD) : FVec Ideal S2x512 .f32 :=
  styleAffine (m ((c : Thread nD τ).loc main_arg1)) (m ((c : Thread nD τ).loc main_arg3)) (m ((c : Thread nD τ).loc main_arg4))
/-- The per-sample output bias of the launch contents. -/
abbrev outBias (c : Dev nD) : FVec Ideal S2x512 .f32 :=
  styleAffine (m ((c : Thread nD τ).loc main_arg1)) (m ((c : Thread nD τ).loc main_arg5)) (m ((c : Thread nD τ).loc main_arg6))

/-- The array the kernel's modulation window stages is the modulation laid out [2, 1, 512]. -/
theorem V_modulation (c : Dev nD) :
    (V m c main_v10 : S2x1x512.Idx → EReal) = shapeCast S2x1x512 (modulation m c) shapeCasts_S2x512_S2x1x512 := by
  dsimp only [Gen.V, Gen.hostOps0]; after_results; rfl

/-- The array the kernel's bias window stages is the bias laid out [2, 1, 512]. -/
theorem V_outBias (c : Dev nD) :
    (V m c main_v11 : S2x1x512.Idx → EReal) = shapeCast S2x1x512 (outBias m c) shapeCasts_S2x512_S2x1x512 := by
  dsimp only [Gen.V, Gen.hostOps0]; after_results; rfl

/-! ## Which rows a point holds -/

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the 256 grid points: the input's block moves with the output's; the modulation's and
    the bias's follow the output's sample and stay at zero elsewhere; the weight's block is the whole array; the output's
    block index is a sample and a row block. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_4.index t (0 : Fin 3) ∧ win0_3.index t (1 : Fin 3) = 0 ∧ win0_3.index t (2 : Fin 3) = 0
    ∧ win0_4.index t (0 : Fin 3) ≤ 1 ∧ win0_4.index t (1 : Fin 3) ≤ 127 ∧ win0_4.index t (2 : Fin 3) = 0 :=
  (by decide +kernel : ∀ t : Fin grid0.N, _)

/-- Every sample and row block is some point's. -/
theorem idx_onto : ∀ (b : Fin 2) (q : Fin 128), ∃ t : Fin cfg0.N, win0_4.index t = ![b.val, q.val, 0] :=
  (by decide +kernel : ∀ (b : Fin 2) (q : Fin 128), ∃ t : Fin grid0.N, win0_4.index t = ![b.val, q.val, 0])

/-! ## The blocks, read off the arrays the region finds -/

/-- The input's block at a point, at `y`, is the input at the index `i` that sits at the block's offset plus `y`. -/
theorem xblock_apply (c : Dev nD) (t : Fin cfg0.N) (y : S1x1024x512.Idx) (i : S2x131072x512.Idx)
    (h0 : (i 0).val = win0_0.index t 0 * 1 + (y 0).val) (h1 : (i 1).val = win0_0.index t 1 * 1024 + (y 1).val)
    (h2 : (i 2).val = win0_0.index t 2 * 512 + (y 2).val) :
    (iblk m c 0 t : Vec Ideal S1x1024x512 .f32) y = (V m c main_arg0 : S2x131072x512.Idx → EReal) i := by
  unfold iblk
  rw [View.read_apply]
  show V m c main_arg0 _ = V m c main_arg0 _
  congr 1
  funext a
  apply Fin.ext
  match a with
  | ⟨0, _⟩ => show win0_0.index t 0 * 1 + 1 * (y 0).val = (i 0).val; omega
  | ⟨1, _⟩ => show win0_0.index t 1 * 1024 + 1 * (y 1).val = (i 1).val; omega
  | ⟨2, _⟩ => show win0_0.index t 2 * 512 + 1 * (y 2).val = (i 2).val; omega

/-- The modulation window's block at a point, likewise. -/
theorem ablock_apply (c : Dev nD) (t : Fin cfg0.N) (y : S1x1x512.Idx) (i : S2x1x512.Idx)
    (h0 : (i 0).val = win0_1.index t 0 * 1 + (y 0).val) (h1 : (i 1).val = win0_1.index t 1 * 1 + (y 1).val)
    (h2 : (i 2).val = win0_1.index t 2 * 512 + (y 2).val) :
    (iblk m c 1 t : Vec Ideal S1x1x512 .f32) y = (V m c main_v10 : S2x1x512.Idx → EReal) i := by
  unfold iblk
  rw [View.read_apply]
  show V m c main_v10 _ = V m c main_v10 _
  congr 1
  funext a
  apply Fin.ext
  match a with
  | ⟨0, _⟩ => show win0_1.index t 0 * 1 + 1 * (y 0).val = (i 0).val; omega
  | ⟨1, _⟩ => show win0_1.index t 1 * 1 + 1 * (y 1).val = (i 1).val; omega
  | ⟨2, _⟩ => show win0_1.index t 2 * 512 + 1 * (y 2).val = (i 2).val; omega

/-- The weight window's block at a point, likewise. -/
theorem wblock_apply (c : Dev nD) (t : Fin cfg0.N) (y : S512x512.Idx) (i : S512x512.Idx)
    (h0 : (i 0).val = win0_2.index t 0 * 512 + (y 0).val) (h1 : (i 1).val = win0_2.index t 1 * 512 + (y 1).val) :
    (iblk m c 2 t : Vec Ideal S512x512 .f32) y = (V m c main_arg2 : S512x512.Idx → EReal) i := by
  unfold iblk
  rw [View.read_apply]
  show V m c main_arg2 _ = V m c main_arg2 _
  congr 1
  funext a
  apply Fin.ext
  match a with
  | ⟨0, _⟩ => show win0_2.index t 0 * 512 + 1 * (y 0).val = (i 0).val; omega
  | ⟨1, _⟩ => show win0_2.index t 1 * 512 + 1 * (y 1).val = (i 1).val; omega

/-- The bias window's block at a point, likewise. -/
theorem bblock_apply (c : Dev nD) (t : Fin cfg0.N) (y : S1x1x512.Idx) (i : S2x1x512.Idx)
    (h0 : (i 0).val = win0_3.index t 0 * 1 + (y 0).val) (h1 : (i 1).val = win0_3.index t 1 * 1 + (y 1).val)
    (h2 : (i 2).val = win0_3.index t 2 * 512 + (y 2).val) :
    (iblk m c 3 t : Vec Ideal S1x1x512 .f32) y = (V m c main_v11 : S2x1x512.Idx → EReal) i := by
  unfold iblk
  rw [View.read_apply]
  show V m c main_v11 _ = V m c main_v11 _
  congr 1
  funext a
  apply Fin.ext
  match a with
  | ⟨0, _⟩ => show win0_3.index t 0 * 1 + 1 * (y 0).val = (i 0).val; omega
  | ⟨1, _⟩ => show win0_3.index t 1 * 1 + 1 * (y 1).val = (i 1).val; omega
  | ⟨2, _⟩ => show win0_3.index t 2 * 512 + 1 * (y 2).val = (i 2).val; omega

/-! ## What a point writes back, and the array after the run -/

/-- The output array the kernel leaves: the specification of the input and the weight as the region finds them, the
    modulation and the bias. -/
abbrev result (c : Dev nD) : FVec Ideal S2x131072x512 .f32 :=
  modLinear (V m c main_arg0) (modulation m c) (V m c main_arg2) (outBias m c)

/-- What point `t` writes back is block `t` of `result`. The stored value at `(0, p, o)` of the block sums, over the channel
    `k`, the input block at `(0, p, k)` times the modulation row at `k` times the weight at `(o, k)`, plus the bias row at `o`;
    the input block's row `p` is the input's row `1024 q + p` of sample `b`, the two rows are sample `b`'s. -/
theorem flushed_eq (c : Dev nD) (t : Fin cfg0.N) :
    (dats m 0 c).flushed 4 t = ((cfg0.win 4).blk t).view.read (Elt Ideal) (result m c) := by
  rw [flushed4]
  unfold out0_4
  rw [View.canon_unit_zero hz3]
  simp only [View.ld_unit_zero (S := S1x1024x512) hz3, View.ld_unit_zero (S := S1x1x512) hz3, View.ld_unit_zero (S := S512x512) hz2]
  obtain ⟨e00, e01, e02, e10, e11, e12, e20, e21, e30, e31, e32, e40, e41, e42⟩ := idx_facts t
  funext j
  have hj0 : (j 0).val < 1 := (j 0).isLt
  have hj1 : (j 1).val < 1024 := (j 1).isLt
  have hj2 : (j 2).val < 512 := (j 2).isLt
  have he : ((cfg0.win 4).blk t).view.emb j
      = ix3 (⟨win0_4.index t 0, by omega⟩ : Fin 2) (⟨win0_4.index t 1 * 1024 + (j 1).val, by omega⟩ : Fin 131072) (⟨(j 2).val, hj2⟩ : Fin 512) := by
    funext a
    apply Fin.ext
    match a with
    | ⟨0, _⟩ => show win0_4.index t 0 * 1 + 1 * (j 0).val = win0_4.index t 0; omega
    | ⟨1, _⟩ => show win0_4.index t 1 * 1024 + 1 * (j 1).val = win0_4.index t 1 * 1024 + (j 1).val; omega
    | ⟨2, _⟩ => show win0_4.index t 2 * 512 + 1 * (j 2).val = (j 2).val; omega
  show k0_pay1 (iblk m c 0 t) (iblk m c 1 t) (iblk m c 3 t) (iblk m c 2 t) j
    = modLinear (V m c main_arg0) (modulation m c) (V m c main_arg2) (outBias m c) (((cfg0.win 4).blk t).view.emb j)
  rw [he, modLinear_apply]
  refine (stored_at _ _ _ _ j).trans ?_
  refine congrArg₂ (fun s t : EReal => s + t) (Finset.sum_congr rfl fun k _ => ?_) ?_
  · refine congrArg₂ (fun s t : EReal => s * t) (congrArg₂ (fun s t : EReal => s * t) ?_ ?_) ?_
    · exact xblock_apply m c t _ _ (by show win0_4.index t 0 = win0_0.index t 0 * 1 + 0; omega)
        (by show win0_4.index t 1 * 1024 + (j 1).val = win0_0.index t 1 * 1024 + (j 1).val; omega)
        (by show k.val = win0_0.index t 2 * 512 + k.val; omega)
    · refine (ablock_apply m c t _ (ix3 (⟨win0_4.index t 0, by omega⟩ : Fin 2) (0 : Fin 1) k)
        (by show win0_4.index t 0 = win0_1.index t 0 * 1 + 0; omega)
        (by show 0 = win0_1.index t 1 * 1 + 0; omega)
        (by show k.val = win0_1.index t 2 * 512 + k.val; omega)).trans ?_
      rw [V_modulation]
      exact shapeCast_sn_s1n_apply _ _ _ _ _
    · exact wblock_apply m c t _ _ (by show (j 2).val = win0_2.index t 0 * 512 + (j 2).val; omega)
        (by show k.val = win0_2.index t 1 * 512 + k.val; omega)
  · refine (bblock_apply m c t _ (ix3 (⟨win0_4.index t 0, by omega⟩ : Fin 2) (0 : Fin 1) (⟨(j 2).val, hj2⟩ : Fin 512))
      (by show win0_4.index t 0 = win0_3.index t 0 * 1 + 0; omega)
      (by show 0 = win0_3.index t 1 * 1 + 0; omega)
      (by show (j 2).val = win0_3.index t 2 * 512 + (j 2).val; omega)).trans ?_
    rw [V_outBias]
    exact shapeCast_sn_s1n_apply _ _ _ _ _

/-- An index of the output is in point `t`'s block iff each coordinate is in the block's range on its axis. -/
theorem mem_blk (t : Fin cfg0.N) (i : S2x131072x512.Idx) :
    i ∈ ((cfg0.win 4).blk t).view.set ↔ ∀ a : Fin 3, win0_4.index t a * S1x1024x512.size a ≤ (i a).val
      ∧ (i a).val < win0_4.index t a * S1x1024x512.size a + S1x1024x512.size a := by
  show i ∈ ((View.whole main_v12).slice (win0_4.rect t)).set ↔ _
  rw [View.set_slice_whole, Rect.mem_set_unit]
  exact Iff.rfl

/-- Every output index `(b, n, o)` is in the block of the point with sample `b` and row block `n / 1024`. -/
theorem cover (i : S2x131072x512.Idx) :
    ∃ t : Fin cfg0.N, (cfg0.win 4).flush t = true ∧ i ∈ ((cfg0.win 4).blk t).view.set := by
  have hi0 : (i 0).val < 2 := (i 0).isLt
  have hi1 : (i 1).val < 131072 := (i 1).isLt
  have hi2 : (i 2).val < 512 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 512 ≤ (i 2).val ∧ (i 2).val < win0_4.index t (2 : Fin 3) * 512 + 512; omega

/-- So the output array ends holding `result`. -/
theorem final (c : Dev nD) : (dats m 0 c).arrAt 4 cfg0.N = result m c :=
  (dats m 0 c).arrAt_eq_of_cover 4 (result m c) (fun t _ => flushed_eq m c t) cover

/-- The kernel's run, read: the output array at the specification of the launch contents, the arguments unchanged. -/
theorem run : θ_run defs (onTc (τ := τ) (main (F := Ideal))) ⟨m, fun _ => 0, ρ⟩ fun r => ∀ c : Dev nD,
      r.2.mem ((c : Thread nD τ).loc main_v12)
        = modLinear (m ((c : Thread nD τ).loc main_arg0)) (modulation m c) (m ((c : Thread nD τ).loc main_arg2)) (outBias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (by
      show modLinear (V m c main_arg0) (modulation m c) (V m c main_arg2) (outBias m c) = _
      rw [V_main_arg0 m c, V_main_arg2 m c])), (h c).2⟩)
    (run_blocks m ρ)

end Cert.KernelIdeal.ArrayValue

end
-- ==== Proof.lean ====
/-
  ModLinear, a style-modulated dense layer: the kernel against its plain reference, over the extended reals.

  Both programs compute, for each sample `b`, position `n` and output channel `o`,
      out[b, n, o] = (∑ k, (x[b, n, k] · a[b, k]) · w[o, k]) + β[b, o],
  where `a = z · weight_alphaᵀ + bias_alpha` and `β = z · weight_betaᵀ + bias_beta` are affine images of the style vector `z`,
  formed on the host by the same operations in both programs. The kernel tiles the positions in blocks of 1024 rows and,
  per block, multiplies by the modulation row, contracts the channels against the transposed weight into a zero
  accumulator and adds the bias row; the narrowing of the matrix unit's operands is the identity on extended reals. The
  reference stretches the two rows over all positions, multiplies, contracts against the weight's second axis and adds.
  Read at an index both are the term above, with the sum over the 512 channels in the same order and every product in
  the same order, so no algebraic law is used and the precondition (finite inputs) is not opened.

  The frames: the kernel's two are its generated frame runs; the reference's is its run with the result dropped. The
  idealization rewrote nothing, so it is preserved trivially.
-/
import proofs.«170841_j41377714930225_1_alg».proof.Defs
import proofs.«170841_j41377714930225_1_alg».proof.Proof.Gen.Kernel
import proofs.«170841_j41377714930225_1_alg».proof.Proof.Gen.Kernel.Skeleton
import proofs.«170841_j41377714930225_1_alg».proof.Proof.Gen.Kernel.Launch
import proofs.«170841_j41377714930225_1_alg».proof.Proof.Gen.Kernel.Points
import proofs.«170841_j41377714930225_1_alg».proof.Proof.Gen.Kernel.Frame
import proofs.«170841_j41377714930225_1_alg».proof.Proof.Gen.KernelIdeal
import proofs.«170841_j41377714930225_1_alg».proof.Proof.Gen.KernelIdeal.Skeleton
import proofs.«170841_j41377714930225_1_alg».proof.Proof.Gen.KernelIdeal.Launch
import proofs.«170841_j41377714930225_1_alg».proof.Proof.Gen.KernelIdeal.Points
import proofs.«170841_j41377714930225_1_alg».proof.Proof.Gen.KernelIdeal.Frame
import proofs.«170841_j41377714930225_1_alg».proof.Proof.Gen.ReferenceIdeal
import proofs.«170841_j41377714930225_1_alg».proof.Proof.Gen.Pre_finite_inputs
import proofs.«170841_j41377714930225_1_alg».proof.Proof.Gen.KernelIdeal.Value
import proofs.«170841_j41377714930225_1_alg».proof.Proof.Gen.ReferenceIdeal.Run
import proofs.«170841_j41377714930225_1_alg».proof.Proof.Gen.ReferenceIdeal.Read
import proofs.«170841_j41377714930225_1_alg».proof.Proof.RefValue
import proofs.«170841_j41377714930225_1_alg».proof.Proof.KernelValue
import Idealize.ShloMosaic.Adequacy
import Idealize.ShloMosaic.Init

noncomputable section

namespace Cert.Proof

open Idealize.ShloMosaic Idealize.ShloMosaic.TcCoe Idealize.SL.Sem Cert.ModLinear

/-- The reference's modulation stage is the kernel's affine image of the style vector: the same host operations. -/
theorem modulation_stage (z : FVec Ideal Cert.KernelIdeal.S2x256 .f32) (W : FVec Ideal Cert.KernelIdeal.S512x256 .f32)
    (bias : FVec Ideal Cert.KernelIdeal.S512 .f32) :
    Cert.ReferenceIdeal.Read.val_main_v4 (F := Ideal) z W bias = Cert.KernelIdeal.ArrayValue.styleAffine z W bias := rfl

/-- And so is its bias stage. -/
theorem bias_stage (z : FVec Ideal Cert.KernelIdeal.S2x256 .f32) (W : FVec Ideal Cert.KernelIdeal.S512x256 .f32)
    (bias : FVec Ideal Cert.KernelIdeal.S512 .f32) :
    Cert.ReferenceIdeal.Read.val_main_v9 (F := Ideal) z W bias = Cert.KernelIdeal.ArrayValue.styleAffine z W bias := rfl

/-- Both programs end with the output at the specification of arguments that agree. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.result_eq, modulation_stage, bias_stage,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
